-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S4096 : Shape := ⟨1, ![4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel

variable [Facts]

def fn {F : FTy → Type} [FloatOps F] (main_arg0 : FVec F S4096x4096 .f32) (main_arg1 : IVec S4096x4096 32) (main_arg2 : IVec S4096 32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  main_v3
-- ==== Kernel.lean ====
abbrev S4096x4096 : Shape := ⟨2, ![4096, 4096]⟩
abbrev S4096 : Shape := ⟨1, ![4096]⟩
abbrev S1x4096 : Shape := ⟨2, ![1, 4096]⟩
abbrev S1024x4096 : Shape := ⟨2, ![1024, 4096]⟩
abbrev S512x4096 : Shape := ⟨2, ![512, 4096]⟩
abbrev S1x512 : Shape := ⟨2, ![1, 512]⟩
abbrev S1024x512 : Shape := ⟨2, ![1024, 512]⟩

abbrev nBuf : Space → Nat
  | .hbm => 8
  | .vmem => 8
  | .smem => 0
  | _ => 0

abbrev bufTy : (tb : Table) → Fin (tcTables nBuf tb) → BufTy
  | .hbm, ⟨0, _⟩ => ⟨S4096x4096, .f32⟩
  | .hbm, ⟨1, _⟩ => ⟨S4096x4096, .i32⟩
  | .hbm, ⟨2, _⟩ => ⟨S4096, .i32⟩
  | .hbm, ⟨3, _⟩ => ⟨S4096x4096, .bf16⟩
  | .hbm, ⟨4, _⟩ => ⟨S4096x4096, .bf16⟩
  | .hbm, ⟨5, _⟩ => ⟨S4096, .f32⟩
  | .hbm, ⟨6, _⟩ => ⟨S1x4096, .f32⟩
  | .hbm, ⟨7, _⟩ => ⟨S4096x4096, .f32⟩
  | .local _ .vmem, ⟨0, _⟩ => ⟨S1024x4096, .bf16⟩
  | .local _ .vmem, ⟨1, _⟩ => ⟨S1024x4096, .bf16⟩
  | .local _ .vmem, ⟨2, _⟩ => ⟨S512x4096, .bf16⟩
  | .local _ .vmem, ⟨3, _⟩ => ⟨S512x4096, .bf16⟩
  | .local _ .vmem, ⟨4, _⟩ => ⟨S1x512, .f32⟩
  | .local _ .vmem, ⟨5, _⟩ => ⟨S1x512, .f32⟩
  | .local _ .vmem, ⟨6, _⟩ => ⟨S1024x512, .f32⟩
  | .local _ .vmem, ⟨7, _⟩ => ⟨S1024x512, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bitsLt_bf16_f32 : FTy.bits .bf16 < FTy.bits .f32
  shapeCasts_S4096_S1x4096 : S4096.ShapeCasts S1x4096
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S1024x512_S1024x512_0_0 : ∀ a, (![0, 0] : Fin 2 → Nat) a + S1024x512.size a ≤ S1024x512.size a
  h_S1024x512 : 0 < S1024x512.numel
  dot_S1024x4096_S512x4096_S1024x512_1_1_0_0_n_n_wf : DotDims.WF S1024x4096 S512x4096 S1024x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S4096x4096.size a
  hwx0_0 : ∀ i : grid0.Coords, EltTy.bits .bf16 = 32 ∨ (Rect.block (s := S4096x4096) S1024x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S4096x4096.size a
  hwx0_1 : ∀ i : grid0.Coords, EltTy.bits .bf16 = 32 ∨ (Rect.block (s := S4096x4096) S512x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x4096.size a
  hwx0_2 : ∀ i : grid0.Coords, EltTy.bits .f32 = 32 ∨ (Rect.block (s := S1x4096) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S4096x4096.size a
  hwx0_3 : ∀ i : grid0.Coords, EltTy.bits .f32 = 32 ∨ (Rect.block (s := S4096x4096) S1024x512.size (cc0_transform_3 i) (hinb0_3 i)).WholeWords (EltTy.packing .f32)

variable [Facts₀]

def dot_S1024x4096_S512x4096_S1024x512_1_1_0_0_n_n : DotDims S1024x4096 S512x4096 S1024x512 where
  lhsContracting := [1]
  rhsContracting := [1]
  lhsNonContracting := [0]
  rhsNonContracting := [0]
  lhsBatch := []
  rhsBatch := []
  wf := dot_S1024x4096_S512x4096_S1024x512_1_1_0_0_n_n_wf

abbrev win0_0 : Pipeline.Window sig grid0 :=
  Pipeline.Window.ofSpec (Memref.whole main_v0) S1024x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1024x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096x4096 : Shape := ⟨2, ![4096, 4096]⟩
abbrev S4096 : Shape := ⟨1, ![4096]⟩
abbrev S_ : Shape := ⟨0, ![]⟩
abbrev S1x4096 : Shape := ⟨2, ![1, 4096]⟩

abbrev nBuf : Space → Nat
  | .hbm => 12
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .i32⟩
  | .hbm, ⟨2, _⟩ => ⟨S4096, .i32⟩
  | .hbm, ⟨3, _⟩ => ⟨S4096x4096, .f32⟩
  | .hbm, ⟨4, _⟩ => ⟨S4096, .f32⟩
  | .hbm, ⟨5, _⟩ => ⟨S4096x4096, .f32⟩
  | .hbm, ⟨6, _⟩ => ⟨S_, .f32⟩
  | .hbm, ⟨7, _⟩ => ⟨S4096x4096, .f32⟩
  | .hbm, ⟨8, _⟩ => ⟨S4096x4096, .f32⟩
  | .hbm, ⟨9, _⟩ => ⟨S1x4096, .f32⟩
  | .hbm, ⟨10, _⟩ => ⟨S4096x4096, .f32⟩
  | .hbm, ⟨11, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  dot_S4096x4096_S4096x4096_S4096x4096_1_1_0_0_n_n_wf : DotDims.WF S4096x4096 S4096x4096 S4096x4096 [1] [1] [0] [0] [] []

variable [Facts₀]

def dot_S4096x4096_S4096x4096_S4096x4096_1_1_0_0_n_n : DotDims S4096x4096 S4096x4096 S4096x4096 where
  lhsContracting := [1]
  rhsContracting := [1]
  lhsNonContracting := [0]
  rhsNonContracting := [0]
  lhsBatch := []
  rhsBatch := []
  wf := dot_S4096x4096_S4096x4096_S4096x4096_1_1_0_0_n_n_wf

class Facts : Prop extends Facts₀ where

variable [Facts]
-- ==== Proof.Dequant.lean ====
/-
  The layer the two programs compute, written once as a function of the three argument arrays, entry by entry:
  entry (p, q) of the result is  (∑ₖ x[p, k] · W[q, k]) · (1/128) + B[q]  on the extended reals, where x is the
  float activation, W the integer weight matrix and B the integer bias, an integer standing for the real number it
  is when read signed. Also the two float patterns that carry the scale: 0x3C000000 is 2⁻⁷ = 1/128 and 0x43000000
  is 2⁷ = 128, both exact, so that multiplying by the first and dividing by the second are one operation on every
  extended real, the infinities included.
-/
import Idealize.ShloMosaic.PureOps.Ideal
import Idealize.ShloMosaic.Lib.ValueIdx

noncomputable section

open scoped BigOperators

namespace Cert.Dequant

open Idealize.ShloMosaic Idealize.ShloMosaic.ValueIdx

/-- The square shape of the activation, the weight and the result. -/
abbrev Sq : Shape := ⟨2, ![4096, 4096]⟩
/-- The shape of the bias. -/
abbrev Sv : Shape := ⟨1, ![4096]⟩

/-- The real number a 32-bit word is when read as a signed integer. -/
def intVal (b : BitVec 32) : EReal := ((b.toInt : ℝ) : EReal)

/-- A signed-integer-to-float conversion at the ideal values is that real number, whatever the float format. -/
theorem sitofp_eq (φ : FTy) (b : BitVec 32) : FloatOps.sitofp (F := Ideal) φ b = intVal b := rfl

/-- Row p of the activation against row q of the weights: the contraction over the shared axis. -/
def rowDot (x : Sq.Idx → EReal) (w : IVec Sq 32) (p q : Fin 4096) : EReal :=
  ∑ k : Fin 4096, x (ix2 p k) * intVal (w (ix2 q k))

/-- Entry (p, q) of the layer's result. -/
def entry (x : Sq.Idx → EReal) (w : IVec Sq 32) (b : IVec Sv 32) (p q : Fin 4096) : EReal :=
  rowDot x w p q * ((1 / 128 : ℝ) : EReal) + intVal (b (ix1 q))

/-- The layer's result as one array. -/
def layer (x : Sq.Idx → EReal) (w : IVec Sq 32) (b : IVec Sv 32) : Sq.Idx → EReal :=
  fun i => entry x w b (i 0) (i 1)

/-- The pattern 0x3C000000 denotes 2⁻⁷ = 1/128. -/
theorem ofBits_inv128 : Ideal.ofBits .f32 0x3C000000#32 = ((1 / 128 : ℝ) : EReal) := by
  simp [Ideal.ofBits, Ideal.ieee, -EReal.coe_mul]; norm_num

/-- The pattern 0x43000000 denotes 2⁷ = 128. -/
theorem ofBits_128 : Ideal.ofBits .f32 0x43000000#32 = ((128 : ℝ) : EReal) := by
  simp [Ideal.ofBits, Ideal.ieee, -EReal.coe_mul]; norm_num

/-- Dividing by the pattern for 128 is multiplying by 1/128, on every extended real. -/
theorem div_128 (a : EReal) : Ideal.div a (Ideal.ofBits .f32 0x43000000#32) = a * ((1 / 128 : ℝ) : EReal) := by
  rw [ofBits_128, Ideal.div_coe (by norm_num : (128 : ℝ) ≠ 0)]

end Cert.Dequant

end
-- ==== Proof.Staged.lean ====
/-
  What the grid finds in the three arrays it reads. Before the grid starts, the host narrows the activation to a
  shorter float format, converts the integer weights to floats, and converts the integer bias to floats and lays it
  out as a single row. At the ideal values a change of float format is the identity and a conversion from a signed
  integer is that integer, so entry by entry the three staged arrays are the activation itself, the weights as
  integers, and the bias as integers read along the row.
-/
import proofs.«124165_j47923245089349_1_alg».proof.Proof.Gen.KernelIdeal.Frame
import proofs.«124165_j47923245089349_1_alg».proof.Proof.Dequant
import Idealize.ShloMosaic.Lib.StableHlo.Run
import Idealize.ShloMosaic.Lib.Pipeline.Value
import Idealize.ShloMosaic.Lib.ValueIdx

noncomputable section

namespace Cert.Staged

open Cert.KernelIdeal Cert.KernelIdeal.Gen Idealize.ShloMosaic Idealize.ShloMosaic.TcCoe Idealize.SL.Sem
open Idealize.ShloMosaic.StableHlo Idealize.ShloMosaic.ValueIdx Cert.Dequant

variable (m : (ℓ : Loc nD τ sig) → Buf (Elt Ideal) ℓ)

/-- The activation as launched. -/
abbrev xArr (c : Dev nD) : Sq.Idx → EReal := m ((c : Thread nD τ).loc main_arg0)
/-- The integer weights as launched. -/
abbrev wArr (c : Dev nD) : IVec Sq 32 := m ((c : Thread nD τ).loc main_arg1)
/-- The integer bias as launched. -/
abbrev bArr (c : Dev nD) : IVec Sv 32 := m ((c : Thread nD τ).loc main_arg2)

/-- The narrowed activation is the activation. -/
theorem stagedX (c : Dev nD) (i : S4096x4096.Idx) : (V m c main_v0 : S4096x4096.Idx → EReal) i = xArr m c i := by
  have e : @Eq (S4096x4096.Idx → EReal) (V m c main_v0)
      (truncf (F := Ideal) .bf16 (m ((c : Thread nD τ).loc main_arg0) : S4096x4096.Idx → EReal) bitsLt_bf16_f32) := by
    dsimp only [V, hostOps0]; after_results
  rw [e]; rfl

/-- The converted weights are the weights' integers. -/
theorem stagedW (c : Dev nD) (i : S4096x4096.Idx) : (V m c main_v1 : S4096x4096.Idx → EReal) i = intVal (wArr m c i) := by
  have e : @Eq (S4096x4096.Idx → EReal) (V m c main_v1)
      (sitofp (F := Ideal) .bf16 (m ((c : Thread nD τ).loc main_arg1) : IVec S4096x4096 32)) := by
    dsimp only [V, hostOps0]; after_results
  rw [e]; rfl

/-- The bias row at column q is the bias' integer at q. -/
theorem stagedB (c : Dev nD) (q : Fin 4096) :
    (V m c main_v3 : S1x4096.Idx → EReal) (ix2 (0 : Fin 1) q) = intVal (bArr m c (ix1 q)) := by
  have e : @Eq (S1x4096.Idx → EReal) (V m c main_v3)
      (shapeCast S1x4096 (sitofp (F := Ideal) .f32 (m ((c : Thread nD τ).loc main_arg2) : IVec S4096 32)) shapeCasts_S4096_S1x4096) := by
    dsimp only [V, hostOps0]; after_results; rfl
  rw [e, shapeCast_apply _ shapeCasts_S4096_S1x4096 (ix2 (0 : Fin 1) q) (ix1 q) (by
    rw [Shape.rowMajor_val_one, Shape.rowMajor_val_two]; show q.val = 0 * 4096 + q.val; omega)]
  rfl

end Cert.Staged

end
-- ==== Proof.BlockEntry.lean ====
/-
  One grid point's work, entry by entry. The body loads a 1024-row block of the activation, a 512-row block of the
  weights and a 512-wide piece of the bias row, contracts the two blocks over their shared axis of length 4096 into
  a zero accumulator, scales every entry by the constant 2⁻⁷ and adds the bias piece along the rows. At the ideal
  values entry (p, q) of what it stores is therefore (∑ₖ X[p, k] · Y[q, k]) · (1/128) + Z[0, q]: the zero accumulator
  adds nothing, the casts to the same shape are the identity, and the contraction index is its one coordinate.
-/
import proofs.«124165_j47923245089349_1_alg».proof.Proof.Gen.KernelIdeal.Skeleton
import proofs.«124165_j47923245089349_1_alg».proof.Proof.Dequant
import Idealize.ShloMosaic.Lib.Pipeline.Value
import Idealize.ShloMosaic.Lib.ValueIdx
import Idealize.ShloMosaic.PureOps.Ideal.Laws

noncomputable section

open scoped BigOperators

namespace Cert.BlockEntry

open Cert.KernelIdeal Cert.KernelIdeal.Gen Idealize.ShloMosaic Idealize.ShloMosaic.ValueIdx Cert.Dequant

/-- The left operand of the block contraction is read at (row of the entry, ·) … -/
theorem lhs_row (i : S1024x512.Idx) (q : dot_S1024x4096_S512x4096_S1024x512_1_1_0_0_n_n.contr.Idx) :
    (dot_S1024x4096_S512x4096_S1024x512_1_1_0_0_n_n.lhsIdx i q 0).val = (i 0).val := by
  unfold DotDims.lhsIdx
  rw [dif_neg (show ¬(0 : Fin S1024x4096.rank) ∈ dot_S1024x4096_S512x4096_S1024x512_1_1_0_0_n_n.lhsBatch by decide), dif_pos (show (0 : Fin S1024x4096.rank) ∈ dot_S1024x4096_S512x4096_S1024x512_1_1_0_0_n_n.lhsNonContracting by decide)]
  rfl
/-- … and at (·, the contraction coordinate). -/
theorem lhs_contr (i : S1024x512.Idx) (q : dot_S1024x4096_S512x4096_S1024x512_1_1_0_0_n_n.contr.Idx) :
    (dot_S1024x4096_S512x4096_S1024x512_1_1_0_0_n_n.lhsIdx i q 1).val = (q ⟨0, by decide⟩).val :=
  dot_S1024x4096_S512x4096_S1024x512_1_1_0_0_n_n.lhsIdx_val_of_single rfl i q
/-- The right operand is read at (column of the entry, ·): the weight block is used transposed … -/
theorem rhs_row (i : S1024x512.Idx) (q : dot_S1024x4096_S512x4096_S1024x512_1_1_0_0_n_n.contr.Idx) :
    (dot_S1024x4096_S512x4096_S1024x512_1_1_0_0_n_n.rhsIdx i q 0).val = (i 1).val := by
  unfold DotDims.rhsIdx
  rw [dif_neg (show ¬(0 : Fin S512x4096.rank) ∈ dot_S1024x4096_S512x4096_S1024x512_1_1_0_0_n_n.rhsBatch by decide), dif_pos (show (0 : Fin S512x4096.rank) ∈ dot_S1024x4096_S512x4096_S1024x512_1_1_0_0_n_n.rhsNonContracting by decide)]
  rfl
/-- … and at (·, the contraction coordinate). -/
theorem rhs_contr (i : S1024x512.Idx) (q : dot_S1024x4096_S512x4096_S1024x512_1_1_0_0_n_n.contr.Idx) :
    (dot_S1024x4096_S512x4096_S1024x512_1_1_0_0_n_n.rhsIdx i q 1).val = (q ⟨0, by decide⟩).val :=
  dot_S1024x4096_S512x4096_S1024x512_1_1_0_0_n_n.rhsIdx_val_of_single rfl i q

/-- The block contraction into the zero accumulator, at entry (p, q): row p of the first block against row q of the
    second, summed over the 4096 shared coordinates. -/
theorem blockDot_apply (X : FVec Ideal S1024x4096 .bf16) (Y : FVec Ideal S512x4096 .bf16) (p : Fin 1024) (q : Fin 512) :
    matmul dot_S1024x4096_S512x4096_S1024x512_1_1_0_0_n_n none X Y (constant S1024x512 .f32 0x00000000#32) (ix2 p q)
      = ∑ k : Fin 4096, X (ix2 p k) * Y (ix2 q k) := by
  simp only [matmul]
  rw [Ideal.matmul_constant_zero_apply, ← Equiv.sum_comp (contrEquiv1 dot_S1024x4096_S512x4096_S1024x512_1_1_0_0_n_n 4096 rfl rfl).symm]
  refine Finset.sum_congr rfl fun k _ => ?_
  have hk := contrEquiv1_symm_val dot_S1024x4096_S512x4096_S1024x512_1_1_0_0_n_n 4096 rfl rfl k
  have el : dot_S1024x4096_S512x4096_S1024x512_1_1_0_0_n_n.lhsIdx (ix2 p q) ((contrEquiv1 dot_S1024x4096_S512x4096_S1024x512_1_1_0_0_n_n 4096 rfl rfl).symm k) = ix2 p k := funext fun a => Fin.ext (by
    match a with
    | ⟨0, _⟩ => exact lhs_row _ _
    | ⟨1, _⟩ => exact (lhs_contr _ _).trans hk)
  have er : dot_S1024x4096_S512x4096_S1024x512_1_1_0_0_n_n.rhsIdx (ix2 p q) ((contrEquiv1 dot_S1024x4096_S512x4096_S1024x512_1_1_0_0_n_n 4096 rfl rfl).symm k) = ix2 q k := funext fun a => Fin.ext (by
    match a with
    | ⟨0, _⟩ => exact rhs_row _ _
    | ⟨1, _⟩ => exact (rhs_contr _ _).trans hk)
  rw [el, er]

/-- The bias piece, a single row, broadcast down the block's rows: entry (p, q) reads it at (0, q). -/
theorem biasRows_apply (Z : FVec Ideal S1x512 .f32) (p : Fin 1024) (q : Fin 512) :
    broadcastTo S1024x512 Z broadcasts_S1x512_S1024x512 (ix2 p q) = Z (ix2 (0 : Fin 1) q) :=
  broadcastTo_apply Z broadcasts_S1x512_S1024x512 (ix2 p q) (ix2 (0 : Fin 1) q) (fun a => by
    match a with
    | ⟨0, _⟩ => show (0 : Nat) = if (1 : Nat) = 1 then 0 else _; rw [if_pos rfl]
    | ⟨1, _⟩ => show q.val = if (512 : Nat) = 1 then 0 else q.val; rw [if_neg (by decide)])

/-- What the body stores, at entry (p, q) of the block. -/
theorem stored_apply (X : FVec Ideal S1024x4096 .bf16) (Y : FVec Ideal S512x4096 .bf16) (Z : FVec Ideal S1x512 .f32)
    (p : Fin 1024) (q : Fin 512) :
    k0_pay1 (F := Ideal) X Y Z (ix2 p q)
      = (∑ k : Fin 4096, X (ix2 p k) * Y (ix2 q k)) * ((1 / 128 : ℝ) : EReal) + Z (ix2 (0 : Fin 1) q) := by
  unfold k0_pay1
  rw [addf_apply, mulf_apply, broadcast_apply, shapeCast_self, shapeCast_self, shapeCast_self, blockDot_apply, biasRows_apply]
  show _ * Ideal.ofBits .f32 0x3C000000#32 + _ = _
  rw [ofBits_inv128]

/-- So when the three loaded blocks are rows P… of the activation, rows Q… of the integer weights and columns Q… of the
    integer bias, the stored entry is the layer's entry (P, Q). Stated over any block entry `j` and any array
    coordinates, the correspondence given entry by entry. -/
theorem stored_entry (X : FVec Ideal S1024x4096 .bf16) (Y : FVec Ideal S512x4096 .bf16) (Z : FVec Ideal S1x512 .f32)
    (x : Sq.Idx → EReal) (w : IVec Sq 32) (b : IVec Sv 32) (j : S1024x512.Idx) (P Q : Fin 4096)
    (hX : ∀ k : Fin 4096, X (ix2 (j 0) k) = x (ix2 P k))
    (hY : ∀ k : Fin 4096, Y (ix2 (j 1) k) = intVal (w (ix2 Q k)))
    (hZ : Z (ix2 (0 : Fin 1) (j 1)) = intVal (b (ix1 Q))) :
    k0_pay1 (F := Ideal) X Y Z j = entry x w b P Q := by
  obtain ⟨p, q, rfl⟩ : ∃ (p : Fin 1024) (q : Fin 512), j = ix2 p q := ⟨j 0, j 1, eq_ix2 j⟩
  have hX' : ∀ k : Fin 4096, X (ix2 p k) = x (ix2 P k) := hX
  have hY' : ∀ k : Fin 4096, Y (ix2 q k) = intVal (w (ix2 Q k)) := hY
  have hZ' : Z (ix2 (0 : Fin 1) q) = intVal (b (ix1 Q)) := hZ
  rw [stored_apply]
  unfold entry rowDot
  simp only [hX', hY', hZ']

end Cert.BlockEntry

end
-- ==== Proof.Tiles.lean ====
/-
  From the grid's blocks to the whole result. The grid has 4 × 8 points; point (r, s) loads rows 1024·r … of the
  activation, rows 512·s … of the weights and columns 512·s … of the bias row, and writes back the 1024 × 512 tile
  at block position (r, s) of the result. Entry (a, b) of that tile is therefore the layer's entry
  (1024·r + a, 512·s + b), so every point writes back the matching tile of ONE array, the layer of the launched
  arguments; the 32 tiles cover the 4096 × 4096 result (entry (P, Q) lies in tile (P / 1024, Q / 512)), and the
  result array ends holding the layer.
-/
import proofs.«124165_j47923245089349_1_alg».proof.Proof.Gen.KernelIdeal.Value
import proofs.«124165_j47923245089349_1_alg».proof.Proof.Staged
import proofs.«124165_j47923245089349_1_alg».proof.Proof.BlockEntry

set_option maxRecDepth 16384

noncomputable section

namespace Cert.Tiles

open Cert.KernelIdeal Cert.KernelIdeal.Gen Cert.KernelIdeal.Value Idealize.ShloMosaic Idealize.ShloMosaic.TcCoe Idealize.SL.Sem
open Idealize.ShloMosaic.Pipeline (Dat)
open Idealize.ShloMosaic.ValueIdx Cert.Dequant Cert.Staged Cert.BlockEntry

variable (m : (ℓ : Loc nD τ sig) → Buf (Elt Ideal) ℓ) (ρ : Dev nD → PrngReg)

theorem zero_offsets : (![0, 0] : Fin 2 → Nat) = fun _ => 0 := funext fun a => by fin_cases a <;> rfl

/-- How the four windows move over the grid, decided point by point: the activation's block row is the tile's block
    row, the weights' block row and the bias' block column are the tile's block column, the other block indices are
    zero, and the tile's block position stays inside 4 × 8. -/
theorem tile_facts : ∀ t : Fin cfg0.N,
    win0_0.index t (0 : Fin 2) = win0_3.index t (0 : Fin 2) ∧ win0_0.index t (1 : Fin 2) = 0
    ∧ win0_1.index t (0 : Fin 2) = win0_3.index t (1 : Fin 2) ∧ win0_1.index t (1 : Fin 2) = 0
    ∧ win0_2.index t (0 : Fin 2) = 0 ∧ win0_2.index t (1 : Fin 2) = win0_3.index t (1 : Fin 2)
    ∧ win0_3.index t (0 : Fin 2) ≤ 3 ∧ win0_3.index t (1 : Fin 2) ≤ 7 :=
  (by decide +kernel : ∀ t : Fin grid0.N, _)

/-- Every block position of the 4 × 8 tiling is some point's. -/
theorem tile_onto : ∀ (r : Fin 4) (s : Fin 8), ∃ t : Fin cfg0.N, win0_3.index t = ![r.val, s.val] :=
  (by decide +kernel : ∀ (r : Fin 4) (s : Fin 8), ∃ t : Fin grid0.N, win0_3.index t = ![r.val, s.val])

/-- The activation block at point t, entry (p, k), is the activation at (P, k) when P is row p of the tile's rows. -/
theorem actBlock_apply (c : Dev nD) (t : Fin cfg0.N) (p : Fin 1024) (k : Fin 4096) (P : Fin 4096)
    (hP : P.val = win0_3.index t (0 : Fin 2) * 1024 + p.val) :
    (iblk m c 0 t : S1024x4096.Idx → EReal) (ix2 p k) = xArr m c (ix2 P k) := by
  show (V m c main_v0 : S4096x4096.Idx → EReal) (((cfg0.win 0).blk t).view.emb (ix2 p k)) = _
  rw [stagedX]
  refine congrArg (xArr m c) (funext fun a => Fin.ext ?_)
  obtain ⟨e0, e1, -⟩ := tile_facts t
  match a with
  | ⟨0, _⟩ => show win0_0.index t (0 : Fin 2) * 1024 + 1 * p.val = P.val; omega
  | ⟨1, _⟩ => show win0_0.index t (1 : Fin 2) * 4096 + 1 * k.val = k.val; omega

/-- The weight block at point t, entry (q, k), is the integer weight at (Q, k) when Q is column q of the tile's columns. -/
theorem weightBlock_apply (c : Dev nD) (t : Fin cfg0.N) (q : Fin 512) (k : Fin 4096) (Q : Fin 4096)
    (hQ : Q.val = win0_3.index t (1 : Fin 2) * 512 + q.val) :
    (iblk m c 1 t : S512x4096.Idx → EReal) (ix2 q k) = intVal (wArr m c (ix2 Q k)) := by
  show (V m c main_v1 : S4096x4096.Idx → EReal) (((cfg0.win 1).blk t).view.emb (ix2 q k)) = _
  rw [stagedW]
  refine congrArg (fun i => intVal (wArr m c i)) (funext fun a => Fin.ext ?_)
  obtain ⟨-, -, e2, e3, -⟩ := tile_facts t
  match a with
  | ⟨0, _⟩ => show win0_1.index t (0 : Fin 2) * 512 + 1 * q.val = Q.val; omega
  | ⟨1, _⟩ => show win0_1.index t (1 : Fin 2) * 4096 + 1 * k.val = k.val; omega

/-- The bias piece at point t, entry (0, q), is the integer bias at Q when Q is column q of the tile's columns. -/
theorem biasBlock_apply (c : Dev nD) (t : Fin cfg0.N) (q : Fin 512) (Q : Fin 4096)
    (hQ : Q.val = win0_3.index t (1 : Fin 2) * 512 + q.val) :
    (iblk m c 2 t : S1x512.Idx → EReal) (ix2 (0 : Fin 1) q) = intVal (bArr m c (ix1 Q)) := by
  show (V m c main_v3 : S1x4096.Idx → EReal) (((cfg0.win 2).blk t).view.emb (ix2 (0 : Fin 1) q)) = _
  rw [← stagedB]
  refine congrArg (V m c main_v3 : S1x4096.Idx → EReal) (funext fun a => Fin.ext ?_)
  obtain ⟨-, -, -, -, e4, e5, -⟩ := tile_facts t
  match a with
  | ⟨0, _⟩ => show win0_2.index t (0 : Fin 2) * 1 + 1 * 0 = 0; omega
  | ⟨1, _⟩ => show win0_2.index t (1 : Fin 2) * 512 + 1 * q.val = Q.val; omega

/-- What point t writes back is tile t of the layer of the launched arguments. -/
theorem flushed_eq (c : Dev nD) (t : Fin cfg0.N) :
    (dats m 0 c).flushed 3 t = ((cfg0.win 3).blk t).view.read (Elt Ideal) (layer (xArr m c) (wArr m c) (bArr m c)) := by
  rw [flushed3]
  unfold out0_3
  rw [View.canon_unit_zero zero_offsets]
  simp only [View.ld_unit_zero (S := S1024x4096) zero_offsets, View.ld_unit_zero (S := S512x4096) zero_offsets,
    View.ld_unit_zero (S := S1x512) zero_offsets]
  funext j
  show k0_pay1 (F := Ideal) (iblk m c 0 t) (iblk m c 1 t) (iblk m c 2 t) ((cfg0.win 3).xinj (grid0.coords t) j)
    = entry (xArr m c) (wArr m c) (bArr m c) ((((cfg0.win 3).blk t).view.emb j) 0) ((((cfg0.win 3).blk t).view.emb j) 1)
  have hP : ((((cfg0.win 3).blk t).view.emb j) 0).val = win0_3.index t (0 : Fin 2) * 1024 + (j 0).val := by
    show win0_3.index t (0 : Fin 2) * 1024 + 1 * (j 0).val = _; omega
  have hQ : ((((cfg0.win 3).blk t).view.emb j) 1).val = win0_3.index t (1 : Fin 2) * 512 + (j 1).val := by
    show win0_3.index t (1 : Fin 2) * 512 + 1 * (j 1).val = _; omega
  exact stored_entry (iblk m c 0 t) (iblk m c 1 t) (iblk m c 2 t) (xArr m c) (wArr m c) (bArr m c)
    ((cfg0.win 3).xinj (grid0.coords t) j) ((((cfg0.win 3).blk t).view.emb j) 0) ((((cfg0.win 3).blk t).view.emb j) 1)
    (fun k => actBlock_apply m c t _ k _ hP) (fun k => weightBlock_apply m c t _ k _ hQ) (biasBlock_apply m c t _ _ hQ)

/-- An entry of the result lies in point t's tile iff each coordinate is in the tile's range on its axis. -/
theorem mem_tile (t : Fin cfg0.N) (i : S4096x4096.Idx) :
    i ∈ ((cfg0.win 3).blk t).view.set ↔ ∀ a : Fin 2, win0_3.index t a * S1024x512.size a ≤ (i a).val ∧ (i a).val < win0_3.index t a * S1024x512.size a + S1024x512.size a := by
  show i ∈ ((View.whole main_v4).slice (win0_3.rect t)).set ↔ _
  rw [View.set_slice_whole, Rect.mem_set_unit]
  exact Iff.rfl

/-- The 32 tiles cover the result: entry (P, Q) lies in the tile at block position (P / 1024, Q / 512). -/
theorem tiles_cover (i : S4096x4096.Idx) :
    ∃ t : Fin cfg0.N, (cfg0.win 3).flush t = true ∧ i ∈ ((cfg0.win 3).blk t).view.set := by
  have hi0 : (i 0).val < 4096 := (i 0).isLt
  have hi1 : (i 1).val < 4096 := (i 1).isLt
  obtain ⟨t, ht⟩ := tile_onto ⟨(i 0).val / 1024, by omega⟩ ⟨(i 1).val / 512, by omega⟩
  have q0 : win0_3.index t (0 : Fin 2) = (i 0).val / 1024 := congrFun ht 0
  have q1 : win0_3.index t (1 : Fin 2) = (i 1).val / 512 := congrFun ht 1
  refine ⟨t, flush0_3 t, ?_⟩
  rw [mem_tile]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 512 ≤ (i 1).val ∧ (i 1).val < win0_3.index t (1 : Fin 2) * 512 + 512; omega

/-- The result array after the run is the layer of the launched arguments. -/
theorem final (c : Dev nD) : (dats m 0 c).arrAt 3 cfg0.N = layer (xArr m c) (wArr m c) (bArr m c) :=
  (dats m 0 c).arrAt_eq_of_cover 3 (layer (xArr m c) (wArr m c) (bArr m c)) (fun t _ => flushed_eq m c t) tiles_cover

/-- The kernel's run, read: it terminates with the result array at the layer of the launched arguments and the
    arguments unchanged. -/
theorem run : θ_run defs (onTc (τ := τ) (main (F := Ideal))) ⟨m, fun _ => 0, ρ⟩ fun r => ∀ c : Dev nD,
      r.2.mem ((c : Thread nD τ).loc main_v4) = layer (xArr m c) (wArr m c) (bArr m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.Tiles

end
-- ==== Proof.RefLayer.lean ====
/-
  The reference computes the layer. Its run ends with the result at the host operations' composed term of the three
  arguments: a contraction of the activation with the converted weights over their shared second axis, a division
  of every entry by the constant 128, and the converted bias added along the rows. Read entry by entry at the ideal
  values this is (∑ₖ x[p, k] · W[q, k]) / 128 + B[q], and a division by 128 is the product with 1/128.
-/
import proofs.«124165_j47923245089349_1_alg».proof.Proof.Gen.ReferenceIdeal.Read
import proofs.«124165_j47923245089349_1_alg».proof.Proof.Dequant

noncomputable section

open scoped BigOperators

namespace Cert.RefLayer

open Cert.ReferenceIdeal Cert.ReferenceIdeal.Read Idealize.ShloMosaic Idealize.ShloMosaic.ValueIdx Cert.Dequant

/-- The contraction's left operand is read at (row of the entry, k). -/
theorem lidx_eq (i : S4096x4096.Idx) (k : Fin 4096) : lidx_main_v2 i k = ix2 (i 0) k :=
  funext fun a => Fin.ext (by match a with | ⟨0, _⟩ => rfl | ⟨1, _⟩ => rfl)

/-- The contraction's right operand is read at (column of the entry, k): the weights are used transposed. -/
theorem ridx_eq (i : S4096x4096.Idx) (k : Fin 4096) : ridx_main_v2 i k = ix2 (i 1) k :=
  funext fun a => Fin.ext (by match a with | ⟨0, _⟩ => rfl | ⟨1, _⟩ => rfl)

/-- The two broadcasts of the bias read it at the entry's column. -/
theorem bidx_eq (i : S4096x4096.Idx) : idx_main_v5 (idx_main_v6 i) = ix1 (i 1) :=
  funext fun a => Fin.ext (by match a with | ⟨0, _⟩ => rfl)

/-- The reference's result term is the layer of its arguments. -/
theorem ref_eq (x : (⟨S4096x4096, .f32⟩ : BufTy).Contents (Elt Ideal)) (w : (⟨S4096x4096, .i32⟩ : BufTy).Contents (Elt Ideal))
    (b : (⟨S4096, .i32⟩ : BufTy).Contents (Elt Ideal)) :
    val_main_v7 (F := Ideal) x w b = layer x w b := by
  funext i
  rw [val_main_v7_apply, val_main_v4_apply, val_main_v2_apply, val_main_v3_apply, val_main_cst_apply,
    val_main_v6_apply, val_main_v5_apply, val_main_v1_apply]
  simp only [val_main_v0_apply, lidx_eq, ridx_eq, bidx_eq, sitofp_eq, Ideal.hostDivf_def, Ideal.addf_def,
    Ideal.ofBits_def, div_128]
  rfl

end Cert.RefLayer

end
-- ==== Proof.lean ====
/-
  A dequantised linear layer: out[p, q] = (∑ₖ x[p, k] · W[q, k]) / 128 + B[q], with x a float activation and W, B
  integer weights and bias. The kernel narrows x, converts W and B on the host, and over a 4 × 8 grid contracts a
  1024-row block of x with a 512-row block of W into a zero accumulator, multiplies by the constant 2⁻⁷ and adds the
  bias piece; the reference contracts the whole arrays, divides by 128 and adds the bias. On the extended reals a
  change of float format is the identity, an integer converts to itself, the zero accumulator adds nothing, and a
  division by 128 is the product with 1/128 = 2⁻⁷ (at the infinities too), so both programs end with the result
  array at ONE function of the launched arguments (`Cert.Dequant.layer`): the kernel tile by tile
  (`Cert.Tiles.run`), the reference operation by operation (`Cert.RefLayer.ref_eq`). No finiteness of the
  inputs is used. The idealized kernel is the kernel's own text read at the ideal values, so nothing is owed for it.
-/
import proofs.«124165_j47923245089349_1_alg».proof.Defs
import proofs.«124165_j47923245089349_1_alg».proof.Proof.Gen.Kernel
import proofs.«124165_j47923245089349_1_alg».proof.Proof.Gen.Kernel.Skeleton
import proofs.«124165_j47923245089349_1_alg».proof.Proof.Gen.Kernel.Launch
import proofs.«124165_j47923245089349_1_alg».proof.Proof.Gen.Kernel.Points
import proofs.«124165_j47923245089349_1_alg».proof.Proof.Gen.Kernel.Frame
import proofs.«124165_j47923245089349_1_alg».proof.Proof.Gen.KernelIdeal
import proofs.«124165_j47923245089349_1_alg».proof.Proof.Gen.KernelIdeal.Skeleton
import proofs.«124165_j47923245089349_1_alg».proof.Proof.Gen.KernelIdeal.Launch
import proofs.«124165_j47923245089349_1_alg».proof.Proof.Gen.KernelIdeal.Points
import proofs.«124165_j47923245089349_1_alg».proof.Proof.Gen.KernelIdeal.Frame
import proofs.«124165_j47923245089349_1_alg».proof.Proof.Gen.ReferenceIdeal
import proofs.«124165_j47923245089349_1_alg».proof.Proof.Gen.Pre_finite_inputs
import proofs.«124165_j47923245089349_1_alg».proof.Proof.Gen.KernelIdeal.Value
import proofs.«124165_j47923245089349_1_alg».proof.Proof.Gen.ReferenceIdeal.Run
import proofs.«124165_j47923245089349_1_alg».proof.Proof.Gen.ReferenceIdeal.Read
import proofs.«124165_j47923245089349_1_alg».proof.Proof.Tiles
import proofs.«124165_j47923245089349_1_alg».proof.Proof.RefLayer
import Idealize.ShloMosaic.Adequacy
import Idealize.ShloMosaic.Init

noncomputable section

namespace Cert.Proof

open Idealize.ShloMosaic Idealize.ShloMosaic.TcCoe Idealize.SL.Sem Cert.Dequant Cert.Staged

/-- The word-level kernel runs and leaves its arguments as launched. -/
theorem frame_kernel : Cert.frame_Kernel := fun m ρ _ => Cert.Kernel.Gen.frame m ρ

/-- So does the kernel read at the ideal values. -/
theorem frame_kernelIdeal : Cert.frame_KernelIdeal := fun m ρ _ => Cert.KernelIdeal.Gen.frame m ρ

/-- The reference is a straight line of host operations: its run terminates with the arguments unchanged. -/
theorem frame_reference : Cert.frame_ReferenceIdeal := fun m ρ _ =>
  (θ_run Cert.ReferenceIdeal.defs _ _).mono (fun _ h c => (h c).2) (Cert.ReferenceIdeal.Value.run (F := Ideal) m ρ)

/-- From arguments that agree, both programs end with the result at the layer of those arguments. -/
theorem algebraic : Cert.algebraic_KernelIdeal_ReferenceIdeal := by
  intro m ρ m' ρ' _ hagree
  refine ⟨fun c => layer (xArr m c) (wArr m c) (bArr m c), Cert.Tiles.run m ρ, ?_⟩
  refine (θ_run Cert.ReferenceIdeal.defs _ _).mono (fun _ h c => ⟨(h c).1.trans ?_, (h c).2⟩)
    (Cert.ReferenceIdeal.Value.run (F := Ideal) m' ρ')
  show _ = layer (xArr m c) (wArr m c) (bArr m c)
  rw [Cert.ReferenceIdeal.Read.val_main_v7_eq, Cert.RefLayer.ref_eq, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
